-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16x2048x512 : Shape := ⟨3, ![16, 2048, 512]⟩
abbrev S16x2048 : Shape := ⟨2, ![16, 2048]⟩
abbrev S2048x512 : Shape := ⟨2, ![2048, 512]⟩
abbrev S2048 : Shape := ⟨1, ![2048]⟩
abbrev S1x2048 : Shape := ⟨2, ![1, 2048]⟩
abbrev S1 : Shape := ⟨1, ![1]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S16x2048x512 : S_.BroadcastsInDim S16x2048x512 (![] : Fin 0 → Fin S16x2048x512.rank)
  reducesTo_S16x2048x512_S_d0_1_2 : S16x2048x512.ReducesTo [0, 1, 2] S_
  bcast_S_S16x2048 : S_.BroadcastsInDim S16x2048 (![] : Fin 0 → Fin S16x2048.rank)
  reducesTo_S16x2048_S_d0_1 : S16x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2048 .f32) (main_arg5 : FVec F S1x2048 .f32) (main_arg6 : FVec F S1 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x2048x2048 .f32) (main_arg1 : FVec F S16x2048x512 .f32) (main_arg2 : FVec F S16x2048 .f32) (main_arg3 : FVec F S2048x512 .f32) (main_arg4 : FVec F S2048 .f32) (main_arg5 : FVec F S1x2048 .f32) (main_arg6 : FVec F S1 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S16x2048x2048 : Shape := ⟨3, ![16, 2048, 2048]⟩
abbrev S16x2048x512 : Shape := ⟨3, ![16, 2048, 512]⟩
abbrev S16x2048 : Shape := ⟨2, ![16, 2048]⟩
abbrev S2048x512 : Shape := ⟨2, ![2048, 512]⟩
abbrev S2048 : Shape := ⟨1, ![2048]⟩
abbrev S1x2048 : Shape := ⟨2, ![1, 2048]⟩
abbrev S1 : Shape := ⟨1, ![1]⟩
abbrev S16x2048x1 : Shape := ⟨3, ![16, 2048, 1]⟩
abbrev S1x256x2048 : Shape := ⟨3, ![1, 256, 2048]⟩
abbrev S1x256x512 : Shape := ⟨3, ![1, 256, 512]⟩
abbrev S1x256x1 : Shape := ⟨3, ![1, 256, 1]⟩
abbrev S256x512 : Shape := ⟨2, ![256, 512]⟩
abbrev S512x2048 : Shape := ⟨2, ![512, 2048]⟩
abbrev S256x2048 : Shape := ⟨2, ![256, 2048]⟩
abbrev S2048x1 : Shape := ⟨2, ![2048, 1]⟩
abbrev S256x1 : Shape := ⟨2, ![256, 1]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .f32⟩
  | .hbm, ⟨2, _⟩ => ⟨S16x2048, .f32⟩
  | .hbm, ⟨3, _⟩ => ⟨S2048x512, .f32⟩
  | .hbm, ⟨4, _⟩ => ⟨S2048, .f32⟩
  | .hbm, ⟨5, _⟩ => ⟨S1x2048, .f32⟩
  | .hbm, ⟨6, _⟩ => ⟨S1, .f32⟩
  | .hbm, ⟨7, _⟩ => ⟨S16x2048x1, .f32⟩
  | .hbm, ⟨8, _⟩ => ⟨S16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x512, .f32⟩
  | .local _ .vmem, ⟨3, _⟩ => ⟨S1x256x512, .f32⟩
  | .local _ .vmem, ⟨4, _⟩ => ⟨S1x256x1, .f32⟩
  | .local _ .vmem, ⟨5, _⟩ => ⟨S1x256x1, .f32⟩
  | .local _ .vmem, ⟨6, _⟩ => ⟨S2048x512, .f32⟩
  | .local _ .vmem, ⟨7, _⟩ => ⟨S2048, .f32⟩
  | .local _ .vmem, ⟨8, _⟩ => ⟨S1x2048, .f32⟩
  | .local _ .vmem, ⟨9, _⟩ => ⟨S1, .f32⟩
  | .local _ .vmem, ⟨10, _⟩ => ⟨S1x256x2048, .f32⟩
  | .local _ .vmem, ⟨11, _⟩ => ⟨S1x256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S16x2048_S16x2048x1_0_1 : S16x2048.BroadcastsInDim S16x2048x1 (![0, 1] : Fin 2 → Fin S16x2048x1.rank)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  transposes_S2048x512_p1_0_S512x2048 : S2048x512.Transposes [1, 0] S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048_S1x2048_0_0 : ∀ a, (![0, 0] : Fin 2 → Nat) a + S1x2048.size a ≤ S1x2048.size a
  h_S1x2048 : 0 < S1x2048.numel
  transposes_S1x2048_p1_0_S2048x1 : S1x2048.Transposes [1, 0] S2048x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  shapeCasts_S256x2048_S1x256x2048 : S256x2048.ShapeCasts S1x256x2048
  dot_S256x512_S512x2048_S256x2048_1_0_0_1_n_n_wf : DotDims.WF S256x512 S512x2048 S256x2048 [1] [0] [0] [1] [] []
  dot_S256x2048_S2048x1_S256x1_1_0_0_1_n_n_wf : DotDims.WF S256x2048 S2048x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x2048x2048.size a
  hwx0_0 : ∀ i : grid0.Coords, EltTy.bits .f32 = 32 ∨ (Rect.block (s := S16x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S16x2048x512.size a
  hwx0_1 : ∀ i : grid0.Coords, EltTy.bits .f32 = 32 ∨ (Rect.block (s := S16x2048x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x2048x1.size a
  hwx0_2 : ∀ i : grid0.Coords, EltTy.bits .f32 = 32 ∨ (Rect.block (s := S16x2048x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x2048.size a ≤ S16x2048x2048.size a
  hwx0_7 : ∀ i : grid0.Coords, EltTy.bits .f32 = 32 ∨ (Rect.block (s := S16x2048x2048) S1x256x2048.size (cc0_transform_7 i) (hinb0_7 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x1_S256x1_1_0_0_1_n_n : DotDims S256x2048 S2048x1 S256x1 where
  lhsContracting := [1]
  rhsContracting := [0]
  lhsNonContracting := [0]
  rhsNonContracting := [1]
  lhsBatch := []
  rhsBatch := []
  wf := dot_S256x2048_S2048x1_S256x1_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S16x2048x512 : Shape := ⟨3, ![16, 2048, 512]⟩
abbrev S16x2048 : Shape := ⟨2, ![16, 2048]⟩
abbrev S2048x512 : Shape := ⟨2, ![2048, 512]⟩
abbrev S2048 : Shape := ⟨1, ![2048]⟩
abbrev S1x2048 : Shape := ⟨2, ![1, 2048]⟩
abbrev S1 : Shape := ⟨1, ![1]⟩
abbrev S1x1x2048 : Shape := ⟨3, ![1, 1, 2048]⟩
abbrev S16x2048x1 : Shape := ⟨3, ![16, 2048, 1]⟩
abbrev S1x1x1 : Shape := ⟨3, ![1, 1, 1]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .f32⟩
  | .hbm, ⟨2, _⟩ => ⟨S16x2048, .f32⟩
  | .hbm, ⟨3, _⟩ => ⟨S2048x512, .f32⟩
  | .hbm, ⟨4, _⟩ => ⟨S2048, .f32⟩
  | .hbm, ⟨5, _⟩ => ⟨S1x2048, .f32⟩
  | .hbm, ⟨6, _⟩ => ⟨S1, .f32⟩
  | .hbm, ⟨7, _⟩ => ⟨S16x2048x2048, .f32⟩
  | .hbm, ⟨8, _⟩ => ⟨S1x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S16x2048x1, .f32⟩
  | .hbm, ⟨14, _⟩ => ⟨S1x1x1, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S16x2048x2048_0_1_2 : S1x1x2048.BroadcastsInDim S16x2048x2048 (![0, 1, 2] : Fin 3 → Fin S16x2048x2048.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  bcast_S_S16x2048x1 : S_.BroadcastsInDim S16x2048x1 (![] : Fin 0 → Fin S16x2048x1.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x512_S2048x512_S16x2048x2048_2_1_01_0_n_n_wf : DotDims.WF S16x2048x512 S2048x512 S16x2048x2048 [2] [1] [0, 1] [0] [] []
  dot_S16x2048x2048_S1x2048_S16x2048x1_2_1_01_0_n_n_wf : DotDims.WF S16x2048x2048 S1x2048 S16x2048x1 [2] [1] [0, 1] [0] [] []

variable [Facts₀]

def dot_S16x2048x512_S2048x512_S16x2048x2048_2_1_01_0_n_n : DotDims S16x2048x512 S2048x512 S16x2048x2048 where
  lhsContracting := [2]
  rhsContracting := [1]
  lhsNonContracting := [0, 1]
  rhsNonContracting := [0]
  lhsBatch := []
  rhsBatch := []
  wf := dot_S16x2048x512_S2048x512_S16x2048x2048_2_1_01_0_n_n_wf
def dot_S16x2048x2048_S1x2048_S16x2048x1_2_1_01_0_n_n : DotDims S16x2048x2048 S1x2048 S16x2048x1 where
  lhsContracting := [2]
  rhsContracting := [1]
  lhsNonContracting := [0, 1]
  rhsNonContracting := [0]
  lhsBatch := []
  rhsBatch := []
  wf := dot_S16x2048x2048_S1x2048_S16x2048x1_2_1_01_0_n_n_wf

class Facts : Prop extends Facts₀ where

variable [Facts]
-- ==== Proof.LibColumn.lean ====
/-
  A column broadcast along a new trailing extent, read at an index.

  An array of shape `[a, 1]` broadcast to `[a, b]` has, at `(p, c)`, the operand's entry `(p, 0)`: the unit axis reads
  its only coordinate, and the first axis reads the result's own first coordinate (when `a = 1` that coordinate is `0`
  on both sides).
-/
import Idealize.ShloMosaic.Lib.Pipeline.Value
import Idealize.ShloMosaic.Lib.ValueIdx

namespace Cert.RadioGate.Lib

open Idealize.ShloMosaic Idealize.ShloMosaic.ValueIdx

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.RadioGate.Lib
-- ==== Proof.Payload.lean ====
/-
  What one grid point computes, entry by entry.

  A grid point holds row block `p ∈ [0, 256)` of one batch entry: a block of `lstm` (1 × 256 × 2048), of `radio`
  (1 × 256 × 512), of the mask (1 × 256 × 1), and the four weight arrays whole. At `(p, h)` the stored value is

    lstm[p,h] + (σ (∑ k, (lstm[p,k] + tanh (∑ r, radio[p,r] · W[k,r] + bias[k])) · Wg[0,k] + bg[0])
                  · tanh (∑ r, radio[p,r] · W[h,r] + bias[h])) · mask[p]

  Both matrix products accumulate into zero, so each is the bare sum over the contracted coordinate; the changes of
  float format are the identity on the extended reals; transposes, shape casts and broadcasts only say where an
  operand is read.
-/
import proofs.«122293_j10900626997293_1_alg».proof.Proof.Gen.KernelIdeal.Skeleton
import proofs.«122293_j10900626997293_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.RadioGate.Kern

open Idealize.ShloMosaic Idealize.ShloMosaic.ValueIdx
open Cert.KernelIdeal Cert.KernelIdeal.Gen Cert.RadioGate.Lib

/-! ## The first product: a 256 × 512 block against the transposed 2048 × 512 weights -/

theorem proj_lhs_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem proj_lhs_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem proj_rhs_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem proj_rhs_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The product into zero, at `(p, h)`: row `p` of the left factor against column `h` of the right. -/
theorem proj_product (a : FVec Ideal S256x512 .bf16) (w : FVec Ideal S512x2048 .bf16) (p : Fin 256) (h : Fin 2048) :
    matmul dot_S256x512_S512x2048_S256x2048_1_0_0_1_n_n none a w (constant S256x2048 .f32 0x00000000#32) (ix2 p h)
      = ∑ k : Fin 512, a (ix2 p k) * w (ix2 k h) := by
  show FloatOps.matmul dot_S256x512_S512x2048_S256x2048_1_0_0_1_n_n none a w (constant S256x2048 .f32 0x00000000#32) (ix2 p h) = _
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p h) ((contrEquiv1 dot_S256x512_S512x2048_S256x2048_1_0_0_1_n_n 512 rfl rfl).symm k) = ix2 p k := funext fun a => Fin.ext (by
    match a with
    | ⟨0, _⟩ => exact proj_lhs_0 _ _
    | ⟨1, _⟩ => exact (proj_lhs_1 _ _).trans hk)
  have er : dot_S256x512_S512x2048_S256x2048_1_0_0_1_n_n.rhsIdx (ix2 p h) ((contrEquiv1 dot_S256x512_S512x2048_S256x2048_1_0_0_1_n_n 512 rfl rfl).symm k) = ix2 k h := funext fun a => Fin.ext (by
    match a with
    | ⟨0, _⟩ => exact (proj_rhs_0 _ _).trans hk
    | ⟨1, _⟩ => exact proj_rhs_1 _ _)
  rw [el, er]

/-! ## The second product: a 256 × 2048 block against the transposed gate row -/

theorem gate_lhs_0 (i : S256x1.Idx) (q : dot_S256x2048_S2048x1_S256x1_1_0_0_1_n_n.contr.Idx) :
    (dot_S256x2048_S2048x1_S256x1_1_0_0_1_n_n.lhsIdx i q 0).val = (i 0).val := by
  unfold DotDims.lhsIdx
  rw [dif_neg (show ¬(0 : Fin S256x2048.rank) ∈ dot_S256x2048_S2048x1_S256x1_1_0_0_1_n_n.lhsBatch by decide), dif_pos (show (0 : Fin S256x2048.rank) ∈ dot_S256x2048_S2048x1_S256x1_1_0_0_1_n_n.lhsNonContracting by decide)]
  rfl
theorem gate_lhs_1 (i : S256x1.Idx) (q : dot_S256x2048_S2048x1_S256x1_1_0_0_1_n_n.contr.Idx) :
    (dot_S256x2048_S2048x1_S256x1_1_0_0_1_n_n.lhsIdx i q 1).val = (q ⟨0, by decide⟩).val :=
  dot_S256x2048_S2048x1_S256x1_1_0_0_1_n_n.lhsIdx_val_of_single rfl i q
theorem gate_rhs_0 (i : S256x1.Idx) (q : dot_S256x2048_S2048x1_S256x1_1_0_0_1_n_n.contr.Idx) :
    (dot_S256x2048_S2048x1_S256x1_1_0_0_1_n_n.rhsIdx i q 0).val = (q ⟨0, by decide⟩).val :=
  dot_S256x2048_S2048x1_S256x1_1_0_0_1_n_n.rhsIdx_val_of_single rfl i q
theorem gate_rhs_1 (i : S256x1.Idx) (q : dot_S256x2048_S2048x1_S256x1_1_0_0_1_n_n.contr.Idx) :
    (dot_S256x2048_S2048x1_S256x1_1_0_0_1_n_n.rhsIdx i q 1).val = (i 1).val := by
  unfold DotDims.rhsIdx
  rw [dif_neg (show ¬(1 : Fin S2048x1.rank) ∈ dot_S256x2048_S2048x1_S256x1_1_0_0_1_n_n.rhsBatch by decide), dif_pos (show (1 : Fin S2048x1.rank) ∈ dot_S256x2048_S2048x1_S256x1_1_0_0_1_n_n.rhsNonContracting by decide)]
  rfl

/-- The product into zero, at `(p, o)`: row `p` of the left factor against the one column of the right. -/
theorem gate_product (a : FVec Ideal S256x2048 .bf16) (w : FVec Ideal S2048x1 .bf16) (p : Fin 256) (o : Fin 1) :
    matmul dot_S256x2048_S2048x1_S256x1_1_0_0_1_n_n none a w (constant S256x1 .f32 0x00000000#32) (ix2 p o)
      = ∑ k : Fin 2048, a (ix2 p k) * w (ix2 k o) := by
  show FloatOps.matmul dot_S256x2048_S2048x1_S256x1_1_0_0_1_n_n none a w (constant S256x1 .f32 0x00000000#32) (ix2 p o) = _
  rw [Ideal.matmul_constant_zero_apply, ← Equiv.sum_comp (contrEquiv1 dot_S256x2048_S2048x1_S256x1_1_0_0_1_n_n 2048 rfl rfl).symm]
  refine Finset.sum_congr rfl fun k _ => ?_
  have hk := contrEquiv1_symm_val dot_S256x2048_S2048x1_S256x1_1_0_0_1_n_n 2048 rfl rfl k
  have el : dot_S256x2048_S2048x1_S256x1_1_0_0_1_n_n.lhsIdx (ix2 p o) ((contrEquiv1 dot_S256x2048_S2048x1_S256x1_1_0_0_1_n_n 2048 rfl rfl).symm k) = ix2 p k := funext fun a => Fin.ext (by
    match a with
    | ⟨0, _⟩ => exact gate_lhs_0 _ _
    | ⟨1, _⟩ => exact (gate_lhs_1 _ _).trans hk)
  have er : dot_S256x2048_S2048x1_S256x1_1_0_0_1_n_n.rhsIdx (ix2 p o) ((contrEquiv1 dot_S256x2048_S2048x1_S256x1_1_0_0_1_n_n 2048 rfl rfl).symm k) = ix2 k o := funext fun a => Fin.ext (by
    match a with
    | ⟨0, _⟩ => exact (gate_rhs_0 _ _).trans hk
    | ⟨1, _⟩ => exact gate_rhs_1 _ _)
  rw [el, er]

/-! ## The pointwise operations at an index -/

theorem tanh_at {s : Shape} (v : FVec Ideal s .f32) (i : s.Idx) : tanh v i = Ideal.tanh (v i) := rfl
theorem logistic_at {s : Shape} (v : FVec Ideal s .f32) (i : s.Idx) : logistic v i = Ideal.logistic (v i) := rfl

/-! ## The block's projection and attention weight -/

/-- The projection of row `p` of the radio block at hidden coordinate `h`. -/
def bproj (x1 : FVec Ideal S1x256x512 .f32) (x3 : FVec Ideal S2048x512 .f32) (x4 : FVec Ideal S2048 .f32)
    (p : Fin 256) (h : Fin 2048) : EReal :=
  Ideal.tanh ((∑ r : Fin 512, x1 (ix3 (0 : Fin 1) p r) * x3 (ix2 h r)) + x4 (ix1 h))

/-- The attention weight of row `p` of the block. -/
def battn (x0 : FVec Ideal S1x256x2048 .f32) (x1 : FVec Ideal S1x256x512 .f32) (x3 : FVec Ideal S2048x512 .f32)
    (x4 : FVec Ideal S2048 .f32) (x5 : FVec Ideal S1x2048 .f32) (x6 : FVec Ideal S1 .f32) (p : Fin 256) : EReal :=
  Ideal.logistic ((∑ k : Fin 2048, (x0 (ix3 (0 : Fin 1) p k) + bproj x1 x3 x4 p k) * x5 (ix2 (0 : Fin 1) k))
    + x6 (ix1 (0 : Fin 1)))

/-- The tanh of the first product plus the broadcast bias is the block's projection. -/
theorem tanh_part (x1 : FVec Ideal S1x256x512 .f32) (x3 : FVec Ideal S2048x512 .f32) (x4 : FVec Ideal S2048 .f32)
    (p : Fin 256) (h : Fin 2048) :
    tanh (addf (matmul dot_S256x512_S512x2048_S256x2048_1_0_0_1_n_n none
        (truncf .bf16 (shapeCast S256x512 x1 shapeCasts_S1x256x512_S256x512) bitsLt_bf16_f32)
        (transpose S512x2048 [1, 0] (truncf .bf16 x3 bitsLt_bf16_f32) transposes_S2048x512_p1_0_S512x2048)
        (constant S256x2048 .f32 0x00000000#32))
      (broadcastTo S256x2048 (shapeCast S1x2048 x4 shapeCasts_S2048_S1x2048) broadcasts_S1x2048_S256x2048)) (ix2 p h)
      = bproj x1 x3 x4 p h := by
  rw [tanh_at, addf_apply, proj_product, broadcastTo_1b_ab_apply, shapeCast_a_1a_apply]
  unfold bproj
  congr 2
  refine Finset.sum_congr rfl fun r _ => ?_
  rw [truncf_apply, shapeCast_1ab_ab_apply, transpose_ix2_apply, truncf_apply]

/-- The logistic function of the second product plus the broadcast gate bias, for a block `pv` that is the projection
    along row `p`: the attention weight of row `p`. -/
theorem attn_part (x0 : FVec Ideal S1x256x2048 .f32) (x1 : FVec Ideal S1x256x512 .f32) (x3 : FVec Ideal S2048x512 .f32)
    (x4 : FVec Ideal S2048 .f32) (pv : FVec Ideal S256x2048 .f32) (x5 : FVec Ideal S1x2048 .f32)
    (x6 : FVec Ideal S1 .f32) (p : Fin 256) (o : Fin 1) (hpv : ∀ k : Fin 2048, pv (ix2 p k) = bproj x1 x3 x4 p k) :
    logistic (addf (matmul dot_S256x2048_S2048x1_S256x1_1_0_0_1_n_n none
        (truncf .bf16 (addf (shapeCast S256x2048 x0 shapeCasts_S1x256x2048_S256x2048) pv) bitsLt_bf16_f32)
        (transpose S2048x1 [1, 0] (truncf .bf16 x5 bitsLt_bf16_f32) transposes_S1x2048_p1_0_S2048x1)
        (constant S256x1 .f32 0x00000000#32))
      (broadcastTo S256x1 (shapeCast S1x1 x6 shapeCasts_S1_S1x1) broadcasts_S1x1_S256x1)) (ix2 p o)
      = battn x0 x1 x3 x4 x5 x6 p := by
  obtain rfl : o = 0 := Subsingleton.elim _ _
  rw [logistic_at, addf_apply, gate_product, broadcastTo_1b_ab_apply, shapeCast_a_1a_apply]
  unfold battn
  congr 2
  refine Finset.sum_congr rfl fun k _ => ?_
  rw [truncf_apply, addf_apply, shapeCast_1ab_ab_apply, transpose_ix2_apply, truncf_apply, hpv]

/-! ## The stored value -/

/-- The value a grid point stores, at `(u, p, h)` of its 1 × 256 × 2048 block. -/
theorem payload_at (x1 : FVec Ideal S1x256x512 .f32) (x3 : FVec Ideal S2048x512 .f32) (x4 : FVec Ideal S2048 .f32)
    (x0 : FVec Ideal S1x256x2048 .f32) (x5 : FVec Ideal S1x2048 .f32) (x6 : FVec Ideal S1 .f32)
    (x2 : FVec Ideal S1x256x1 .f32) (u : Fin 1) (p : Fin 256) (h : Fin 2048) :
    k0_pay1 (F := Ideal) x1 x3 x4 x0 x5 x6 x2 (ix3 u p h)
      = x0 (ix3 (0 : Fin 1) p h)
        + (battn x0 x1 x3 x4 x5 x6 p * bproj x1 x3 x4 p h) * x2 (ix3 (0 : Fin 1) p (0 : Fin 1)) := by
  unfold k0_pay1
  simp only [shapeCast_ab_1ab_apply, addf_apply, mulf_apply, broadcastTo_a1_ab_apply, shapeCast_1ab_ab_apply]
  rw [tanh_part, attn_part x0 x1 x3 x4 _ x5 x6 p 0 fun k => tanh_part x1 x3 x4 p k]

end Cert.RadioGate.Kern

end
-- ==== Proof.Spec.lean ====
/-
  The function both programs compute, on the extended reals.

  For a batch `b`, a time step `s` and a hidden coordinate `h`:

    proj b s h = tanh (∑ r, radio[b,s,r] · W[h,r] + bias[h])
    attn b s   = σ (∑ h, (lstm[b,s,h] + proj b s h) · Wg[0,h] + bg[0]),   σ x = 1 / (1 + e^(-x))
    out[b,s,h] = lstm[b,s,h] + (attn b s · proj b s h) · gate[b,s]

  The sums are finite sums in the commutative monoid of the extended reals, so their order is immaterial; every other
  operation is applied in the order written. No law that needs finiteness is used anywhere: the two programs group
  their sums and products the same way.
-/
import Idealize.ShloMosaic.PureOps.Ideal
import Idealize.ShloMosaic.PureOps.Ideal.Laws
import Idealize.ShloMosaic.Lib.ValueIdx

noncomputable section

namespace Cert.RadioGate

open Idealize.ShloMosaic Idealize.ShloMosaic.ValueIdx

/-- The radio projection: the row `(b, s)` of `radio` against row `h` of the weight matrix, plus the bias, through tanh. -/
def proj (radio : FVec Ideal ⟨3, ![16, 2048, 512]⟩ .f32) (W : FVec Ideal ⟨2, ![2048, 512]⟩ .f32)
    (bias : FVec Ideal ⟨1, ![2048]⟩ .f32) (b : Fin 16) (s : Fin 2048) (h : Fin 2048) : EReal :=
  Ideal.tanh ((∑ r : Fin 512, radio (ix3 b s r) * W (ix2 h r)) + bias (ix1 h))

/-- The attention weight of time step `(b, s)`: the logistic function of the gate row against `lstm + proj`. -/
def attn (lstm : FVec Ideal ⟨3, ![16, 2048, 2048]⟩ .f32) (radio : FVec Ideal ⟨3, ![16, 2048, 512]⟩ .f32)
    (W : FVec Ideal ⟨2, ![2048, 512]⟩ .f32) (bias : FVec Ideal ⟨1, ![2048]⟩ .f32)
    (Wg : FVec Ideal ⟨2, ![1, 2048]⟩ .f32) (bg : FVec Ideal ⟨1, ![1]⟩ .f32) (b : Fin 16) (s : Fin 2048) : EReal :=
  Ideal.logistic ((∑ h : Fin 2048, (lstm (ix3 b s h) + proj radio W bias b s h) * Wg (ix2 (0 : Fin 1) h))
    + bg (ix1 (0 : Fin 1)))

/-- The result array, index by index. -/
def out (lstm : FVec Ideal ⟨3, ![16, 2048, 2048]⟩ .f32) (radio : FVec Ideal ⟨3, ![16, 2048, 512]⟩ .f32)
    (gate : FVec Ideal ⟨2, ![16, 2048]⟩ .f32) (W : FVec Ideal ⟨2, ![2048, 512]⟩ .f32)
    (bias : FVec Ideal ⟨1, ![2048]⟩ .f32) (Wg : FVec Ideal ⟨2, ![1, 2048]⟩ .f32) (bg : FVec Ideal ⟨1, ![1]⟩ .f32) :
    FVec Ideal ⟨3, ![16, 2048, 2048]⟩ .f32 := fun i =>
  lstm i
    + (attn lstm radio W bias Wg bg (i 0) (i 1) * proj radio W bias (i 0) (i 1) (i 2)) * gate (ix2 (i 0) (i 1))

/-- The single-precision word of one denotes the real number one. -/
theorem one_word : Ideal.ofBits .f32 0x3F800000#32 = (1 : EReal) := by
  simp [Ideal.ofBits, Ideal.ieee, -EReal.coe_mul]; norm_num

/-- The logistic function spelt out in the host's operations — negate, exponential, one plus, one over — with the
    ones given as their words, is the logistic function. -/
theorem logistic_spelt (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x)))
      = Ideal.logistic x := by
  rw [one_word]; rfl

end Cert.RadioGate

end
-- ==== Proof.Blocks.lean ====
/-
  From a grid point's blocks to the argument arrays.

  The grid has 16 × 8 points; point `t` works on batch entry `t / 8` and on rows `(t % 8) · 256 … (t % 8) · 256 + 255`
  of it. Its block of `lstm`, of `radio` and of the mask is the corresponding slab of the array, and the four weight
  arrays come whole. The mask's array is the mask with a trailing unit axis, made by a broadcast before the call.
-/
import proofs.«122293_j10900626997293_1_alg».proof.Proof.Gen.KernelIdeal.Value
import proofs.«122293_j10900626997293_1_alg».proof.Proof.Payload
import proofs.«122293_j10900626997293_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.StableHlo
open Idealize.ShloMosaic.Pipeline (Dat)

namespace Cert.RadioGate.Kern

open Cert.KernelIdeal Cert.KernelIdeal.Gen Cert.KernelIdeal.Value Cert.RadioGate

variable (m : (ℓ : Loc nD τ sig) → Buf (Elt Ideal) ℓ) (ρ : Dev nD → PrngReg)

/-! ## The index maps over the grid -/

/-- Every window's block index at point `t`, decided over the 128 points: the three row-blocked windows and the output
    sit at `(t / 8, t % 8, 0)`, the four weight windows at the origin. -/
theorem index_facts : ∀ t : Fin cfg0.N,
    (win0_7.index t (0 : Fin 3) = t.val / 8 ∧ win0_7.index t (1 : Fin 3) = t.val % 8 ∧ win0_7.index t (2 : Fin 3) = 0)
    ∧ (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0 :=
  (by decide +kernel : ∀ t : Fin grid0.N, _)

/-! ## The input blocks as slabs of the arrays -/

/-- The `lstm` block of point `t` at `y` is the array at batch `t / 8`, row `(t % 8) · 256 + y 1`, column `y 2`. -/
theorem lstm_block_at (c : Dev nD) (t : Fin cfg0.N) (y : S1x256x2048.Idx) (i : S16x2048x2048.Idx)
    (h0 : (i 0).val = t.val / 8) (h1 : (i 1).val = t.val % 8 * 256 + (y 1).val) (h2 : (i 2).val = (y 2).val) :
    (iblk m c 0 t : FVec Ideal S1x256x2048 .f32) y
      = (m ((c : Thread nD τ).loc main_arg0) : FVec Ideal S16x2048x2048 .f32) i := by
  obtain ⟨-, ⟨e0, e1, e2⟩, -⟩ := index_facts t
  have hy0 : (y 0).val < 1 := (y 0).isLt
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 2048 + 1 * (y 2).val = (i 2).val; omega

/-- The `radio` block of point `t`, likewise. -/
theorem radio_block_at (c : Dev nD) (t : Fin cfg0.N) (y : S1x256x512.Idx) (i : S16x2048x512.Idx)
    (h0 : (i 0).val = t.val / 8) (h1 : (i 1).val = t.val % 8 * 256 + (y 1).val) (h2 : (i 2).val = (y 2).val) :
    (iblk m c 1 t : FVec Ideal S1x256x512 .f32) y
      = (m ((c : Thread nD τ).loc main_arg1) : FVec Ideal S16x2048x512 .f32) i := by
  obtain ⟨-, -, ⟨e0, e1, e2⟩, -⟩ := index_facts t
  have hy0 : (y 0).val < 1 := (y 0).isLt
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * (y 0).val = (i 0).val; omega
  | ⟨1, _⟩ => show win0_1.index t (1 : Fin 3) * 256 + 1 * (y 1).val = (i 1).val; omega
  | ⟨2, _⟩ => show win0_1.index t (2 : Fin 3) * 512 + 1 * (y 2).val = (i 2).val; omega

/-- The weight matrix comes whole. -/
theorem weight_block (c : Dev nD) (t : Fin cfg0.N) :
    (iblk m c 3 t : FVec Ideal S2048x512 .f32) = m ((c : Thread nD τ).loc main_arg3) := by
  obtain ⟨-, -, -, -, ⟨e0, e1⟩, -⟩ := index_facts t
  funext y
  unfold iblk
  rw [View.read_apply]
  show V m c main_arg3 _ = m (c.tc.loc main_arg3) y
  rw [V_main_arg3]
  congr 1
  funext a
  apply Fin.ext
  match a with
  | ⟨0, _⟩ => show win0_3.index t (0 : Fin 2) * 2048 + 1 * (y 0).val = (y 0).val; omega
  | ⟨1, _⟩ => show win0_3.index t (1 : Fin 2) * 512 + 1 * (y 1).val = (y 1).val; omega

/-- The bias comes whole. -/
theorem bias_block (c : Dev nD) (t : Fin cfg0.N) :
    (iblk m c 4 t : FVec Ideal S2048 .f32) = m ((c : Thread nD τ).loc main_arg4) := by
  obtain ⟨-, -, -, -, -, e0, -⟩ := index_facts t
  funext y
  unfold iblk
  rw [View.read_apply]
  show V m c main_arg4 _ = m (c.tc.loc main_arg4) y
  rw [V_main_arg4]
  congr 1
  funext a
  apply Fin.ext
  match a with
  | ⟨0, _⟩ => show win0_4.index t (0 : Fin 1) * 2048 + 1 * (y 0).val = (y 0).val; omega

/-- The gate row comes whole. -/
theorem gate_row_block (c : Dev nD) (t : Fin cfg0.N) :
    (iblk m c 5 t : FVec Ideal S1x2048 .f32) = m ((c : Thread nD τ).loc main_arg5) := by
  obtain ⟨-, -, -, -, -, -, ⟨e0, e1⟩, -⟩ := index_facts t
  funext y
  unfold iblk
  rw [View.read_apply]
  show V m c main_arg5 _ = m (c.tc.loc main_arg5) y
  rw [V_main_arg5]
  congr 1
  funext a
  apply Fin.ext
  match a with
  | ⟨0, _⟩ => show win0_5.index t (0 : Fin 2) * 1 + 1 * (y 0).val = (y 0).val; omega
  | ⟨1, _⟩ => show win0_5.index t (1 : Fin 2) * 2048 + 1 * (y 1).val = (y 1).val; omega

/-- The gate bias comes whole. -/
theorem gate_bias_block (c : Dev nD) (t : Fin cfg0.N) :
    (iblk m c 6 t : FVec Ideal S1 .f32) = m ((c : Thread nD τ).loc main_arg6) := by
  obtain ⟨-, -, -, -, -, -, -, e0⟩ := index_facts t
  funext y
  unfold iblk
  rw [View.read_apply]
  show V m c main_arg6 _ = m (c.tc.loc main_arg6) y
  rw [V_main_arg6]
  congr 1
  funext a
  apply Fin.ext
  match a with
  | ⟨0, _⟩ => show win0_6.index t (0 : Fin 1) * 1 + 1 * (y 0).val = (y 0).val; omega

/-- The mask's array, as the call finds it: the mask with a trailing unit axis. -/
theorem mask_array (c : Dev nD) :
    (V m c main_v0 : FVec Ideal S16x2048x1 .f32)
      = broadcastInDim S16x2048x1 ![0, 1] bcast_S16x2048_S16x2048x1_0_1 (m ((c : Thread nD τ).loc main_arg2)) := by
  dsimp only [V, hostOps0]
  after_results

/-- The mask block of point `t` at `y` is the mask at batch `t / 8`, row `(t % 8) · 256 + y 1`. -/
theorem mask_block_at (c : Dev nD) (t : Fin cfg0.N) (y : S1x256x1.Idx) (b : Fin 16) (s : Fin 2048)
    (hb : b.val = t.val / 8) (hs : s.val = t.val % 8 * 256 + (y 1).val) :
    (iblk m c 2 t : FVec Ideal S1x256x1 .f32) y
      = (m ((c : Thread nD τ).loc main_arg2) : FVec Ideal S16x2048 .f32) (ix2 b s) := by
  obtain ⟨-, -, -, ⟨e0, e1, e2⟩, -⟩ := index_facts t
  have hy0 : (y 0).val < 1 := (y 0).isLt
  unfold iblk
  rw [View.read_apply]
  show (V m c main_v0 : FVec Ideal S16x2048x1 .f32) _ = _
  rw [mask_array]
  refine broadcastInDim_apply _ bcast_S16x2048_S16x2048x1_0_1 _ _ (ix2 b s) fun a => ?_
  match a with
  | ⟨0, _⟩ =>
    show b.val = if (16 : ℕ) = 1 then 0 else win0_2.index t (0 : Fin 3) * 1 + 1 * (y 0).val
    rw [if_neg (by decide)]; omega
  | ⟨1, _⟩ =>
    show s.val = if (2048 : ℕ) = 1 then 0 else win0_2.index t (1 : Fin 3) * 256 + 1 * (y 1).val
    rw [if_neg (by decide)]; omega

/-! ## The point's projection and attention weight, on the arrays -/

/-- Row `p` of point `t` is row `s = (t % 8) · 256 + p` of batch entry `b = t / 8`: the block's projection is the array's. -/
theorem block_proj (c : Dev nD) (t : Fin cfg0.N) (p : Fin 256) (h : Fin 2048) (b : Fin 16) (s : Fin 2048)
    (hb : b.val = t.val / 8) (hs : s.val = t.val % 8 * 256 + p.val) :
    bproj (iblk m c 1 t) (iblk m c 3 t) (iblk m c 4 t) p h
      = proj (m ((c : Thread nD τ).loc main_arg1)) (m ((c : Thread nD τ).loc main_arg3)) (m ((c : Thread nD τ).loc main_arg4)) b s h := by
  unfold bproj proj
  rw [weight_block m c t, bias_block m c t]
  congr 2
  refine Finset.sum_congr rfl fun r _ => ?_
  rw [radio_block_at m c t (ix3 (0 : Fin 1) p r) (ix3 b s r) hb hs rfl]

/-- And the block's attention weight is the array's. -/
theorem block_attn (c : Dev nD) (t : Fin cfg0.N) (p : Fin 256) (b : Fin 16) (s : Fin 2048)
    (hb : b.val = t.val / 8) (hs : s.val = t.val % 8 * 256 + p.val) :
    battn (iblk m c 0 t) (iblk m c 1 t) (iblk m c 3 t) (iblk m c 4 t) (iblk m c 5 t) (iblk m c 6 t) p
      = attn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b s := by
  unfold battn attn
  rw [gate_row_block m c t, gate_bias_block m c t]
  congr 2
  refine Finset.sum_congr rfl fun k _ => ?_
  rw [lstm_block_at m c t (ix3 (0 : Fin 1) p k) (ix3 b s k) hb hs rfl, block_proj m c t p k b s hb hs]

/-- What point `t` stores at `(u, p, h)` of its block is the specification at `(b, s, h)`. -/
theorem point_value (c : Dev nD) (t : Fin cfg0.N) (u : Fin 1) (p : Fin 256) (h : Fin 2048) (b : Fin 16) (s : Fin 2048)
    (hb : b.val = t.val / 8) (hs : s.val = t.val % 8 * 256 + p.val) :
    k0_pay1 (F := Ideal) (iblk m c 1 t) (iblk m c 3 t) (iblk m c 4 t) (iblk m c 0 t) (iblk m c 5 t) (iblk m c 6 t)
        (iblk m c 2 t) (ix3 u p h)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s h) := by
  refine (payload_at (iblk m c 1 t) (iblk m c 3 t) (iblk m c 4 t) (iblk m c 0 t) (iblk m c 5 t) (iblk m c 6 t)
    (iblk m c 2 t) u p h).trans ?_
  rw [block_attn m c t p b s hb hs, block_proj m c t p h b s hb hs,
    lstm_block_at m c t (ix3 (0 : Fin 1) p h) (ix3 b s h) hb hs rfl,
    mask_block_at m c t (ix3 (0 : Fin 1) p (0 : Fin 1)) b s hb hs]
  rfl

/-! ## The result array -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification of the arrays the program was launched with. -/
abbrev result (c : Dev nD) : FVec Ideal S16x2048x2048 .f32 :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem grid_points (t : Fin cfg0.N) : t.val < 128 := by
  have h := t.isLt
  have e : cfg0.N = 128 := N_0
  omega

/-- What point `t` writes back is block `t` of the specification. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz3]
  simp only [View.ld_unit_zero (S := S1x256x512) hz3, View.ld_unit_zero (S := S2048x512) hz2,
    View.ld_unit_zero (S := S2048) hz1, View.ld_unit_zero (S := S1x256x2048) hz3,
    View.ld_unit_zero (S := S1x2048) hz2, View.ld_unit_zero (S := S1) hz1, View.ld_unit_zero (S := S1x256x1) hz3]
  obtain ⟨⟨e0, e1, e2⟩, -⟩ := index_facts t
  have ht := grid_points t
  funext j
  have hj0 : (j 0).val < 1 := (j 0).isLt
  have hj1 : (j 1).val < 256 := (j 1).isLt
  have hj2 : (j 2).val < 2048 := (j 2).isLt
  have hx : (cfg0.win 7).xinj (grid0.coords t) j
      = ix3 (⟨(j 0).val, hj0⟩ : Fin 1) (⟨(j 1).val, hj1⟩ : Fin 256) (⟨(j 2).val, hj2⟩ : Fin 2048) :=
    funext fun a => match a with | ⟨0, _⟩ => rfl | ⟨1, _⟩ => rfl | ⟨2, _⟩ => rfl
  refine (congrArg (k0_pay1 (F := Ideal) (iblk m c 1 t) (iblk m c 3 t) (iblk m c 4 t) (iblk m c 0 t) (iblk m c 5 t)
    (iblk m c 6 t) (iblk m c 2 t)) hx).trans ?_
  refine (point_value m c t ⟨(j 0).val, hj0⟩ ⟨(j 1).val, hj1⟩ ⟨(j 2).val, hj2⟩ ⟨t.val / 8, by omega⟩
    ⟨t.val % 8 * 256 + (j 1).val, by omega⟩ rfl rfl).trans ?_
  rw [View.read_apply]
  show result m c _ = result m c _
  congr 1
  funext a
  apply Fin.ext
  match a with
  | ⟨0, _⟩ => show t.val / 8 = win0_7.index t (0 : Fin 3) * 1 + 1 * (j 0).val; omega
  | ⟨1, _⟩ => show t.val % 8 * 256 + (j 1).val = win0_7.index t (1 : Fin 3) * 256 + 1 * (j 1).val; omega
  | ⟨2, _⟩ => show (j 2).val = win0_7.index t (2 : Fin 3) * 2048 + 1 * (j 2).val; omega

/-- An index of the array is in point `t`'s block iff each coordinate is in the block's range on its axis. -/
theorem mem_blk (t : Fin cfg0.N) (i : S16x2048x2048.Idx) :
    i ∈ ((cfg0.win 7).blk t).view.set ↔ ∀ a : Fin 3, win0_7.index t a * S1x256x2048.size a ≤ (i a).val
      ∧ (i a).val < win0_7.index t a * S1x256x2048.size a + S1x256x2048.size a := by
  show i ∈ ((View.whole main_v1).slice (win0_7.rect t)).set ↔ _
  rw [View.set_slice_whole, Rect.mem_set_unit]
  exact Iff.rfl

/-- Every index of the result array lies in the block of the point `(i 0) · 8 + (i 1) / 256`. -/
theorem covered (i : S16x2048x2048.Idx) :
    ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 2048 := (i 2).isLt
  have hN : (i 0).val * 8 + (i 1).val / 256 < cfg0.N := by rw [show cfg0.N = 128 from N_0]; omega
  refine ⟨⟨(i 0).val * 8 + (i 1).val / 256, hN⟩, flush0_7 _, ?_⟩
  obtain ⟨⟨e0, e1, e2⟩, -⟩ := index_facts ⟨(i 0).val * 8 + (i 1).val / 256, hN⟩
  rw [mem_blk]
  intro a
  match a with
  | ⟨0, _⟩ =>
    show win0_7.index ⟨(i 0).val * 8 + (i 1).val / 256, hN⟩ (0 : Fin 3) * 1 ≤ (i 0).val
      ∧ (i 0).val < win0_7.index ⟨(i 0).val * 8 + (i 1).val / 256, hN⟩ (0 : Fin 3) * 1 + 1
    rw [e0]; show ((i 0).val * 8 + (i 1).val / 256) / 8 * 1 ≤ (i 0).val ∧ (i 0).val < ((i 0).val * 8 + (i 1).val / 256) / 8 * 1 + 1
    omega
  | ⟨1, _⟩ =>
    show win0_7.index ⟨(i 0).val * 8 + (i 1).val / 256, hN⟩ (1 : Fin 3) * 256 ≤ (i 1).val
      ∧ (i 1).val < win0_7.index ⟨(i 0).val * 8 + (i 1).val / 256, hN⟩ (1 : Fin 3) * 256 + 256
    rw [e1]; show ((i 0).val * 8 + (i 1).val / 256) % 8 * 256 ≤ (i 1).val ∧ (i 1).val < ((i 0).val * 8 + (i 1).val / 256) % 8 * 256 + 256
    omega
  | ⟨2, _⟩ =>
    show win0_7.index ⟨(i 0).val * 8 + (i 1).val / 256, hN⟩ (2 : Fin 3) * 2048 ≤ (i 2).val
      ∧ (i 2).val < win0_7.index ⟨(i 0).val * 8 + (i 1).val / 256, hN⟩ (2 : Fin 3) * 2048 + 2048
    rw [e2]; omega

/-- The result array after the run is the specification. -/
theorem final (c : Dev nD) : (dats m 0 c).arrAt 7 cfg0.N = result m c :=
  (dats m 0 c).arrAt_eq_of_cover 7 (result m c) (fun t _ => flushed_eq m c t) covered

/-- The kernel's run: it ends with the result array at the specification of its arguments, which are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.RadioGate.Kern

end
-- ==== Proof.RefSide.lean ====
/-
  The reference computes the specification.

  Read stage by stage, the reference's tanh stage is `proj`, its quotient stage — one over one plus the exponential of the
  negated gate sum — is `attn`, and its last sum is `out`. Each matrix product is read as a finite sum over the contracted
  coordinate; what is left is to say where each operand is read: the product's left operand at `(b, s, k)`, its right
  operand at `(h, k)`, a broadcast operand at the coordinates it has.
-/
import proofs.«122293_j10900626997293_1_alg».proof.Proof.Gen.ReferenceIdeal.Read
import proofs.«122293_j10900626997293_1_alg».proof.Proof.Spec

noncomputable section

namespace Cert.RadioGate.Ref

open Idealize.ShloMosaic Idealize.ShloMosaic.ValueIdx
open Cert.ReferenceIdeal Cert.ReferenceIdeal.Read Cert.RadioGate

/-! ## Where each operand is read -/

/-- The first product's left operand, for the result at `i` and the contracted coordinate `k`: row `(i 0, i 1)`, column `k`. -/
theorem radio_at (i : S16x2048x2048.Idx) (k : Fin 512) : lidx_main_v0 i k = ix3 (n0 := 16) (n1 := 2048) (n2 := 512) (i 0) (i 1) k :=
  funext fun a => match a with | ⟨0, _⟩ => rfl | ⟨1, _⟩ => rfl | ⟨2, _⟩ => rfl

/-- Its right operand: row `i 2` of the weight matrix, column `k`. -/
theorem weight_at (i : S16x2048x2048.Idx) (k : Fin 512) : ridx_main_v0 i k = ix2 (n0 := 2048) (n1 := 512) (i 2) k :=
  funext fun a => match a with | ⟨0, _⟩ => rfl | ⟨1, _⟩ => rfl

/-- The bias, broadcast twice, is read at the hidden coordinate. -/
theorem bias_at (i : S16x2048x2048.Idx) : idx_main_v1 (idx_main_v2 i) = ix1 (n := 2048) (i 2) :=
  funext fun a => match a with | ⟨0, _⟩ => rfl

/-- The second product's left operand, for the result at `j` and the contracted coordinate `k`. -/
theorem summand_at (j : S16x2048x1.Idx) (k : Fin 2048) : lidx_main_v6 j k = ix3 (n0 := 16) (n1 := 2048) (n2 := 2048) (j 0) (j 1) k :=
  funext fun a => match a with | ⟨0, _⟩ => rfl | ⟨1, _⟩ => rfl | ⟨2, _⟩ => rfl

/-- Its right operand: the gate row's one row, column `k`. -/
theorem gate_row_at (j : S16x2048x1.Idx) (k : Fin 2048) : ridx_main_v6 j k = ix2 (0 : Fin 1) k :=
  funext fun a => match a with
    | ⟨0, _⟩ => Fin.ext (by have h : (j 2).val < 1 := (j 2).isLt; show (j 2).val = 0; omega)
    | ⟨1, _⟩ => rfl

/-- The gate's bias, broadcast twice, is read at its one entry. -/
theorem gate_bias_at (j : S16x2048x1.Idx) : idx_main_v7 (idx_main_v8 j) = ix1 (0 : Fin 1) :=
  funext fun a => match a with | ⟨0, _⟩ => rfl

/-- The mask, given a unit axis and broadcast along the hidden axis, is read at `(i 0, i 1)`. -/
theorem mask_at (i : S16x2048x2048.Idx) : idx_main_v16 (idx_main_v19 i) = ix2 (n0 := 16) (n1 := 2048) (i 0) (i 1) :=
  funext fun a => match a with | ⟨0, _⟩ => rfl | ⟨1, _⟩ => rfl

/-! ## The stages -/

/-- The tanh stage is the projection. -/
theorem tanh_stage (x1 : FVec Ideal S16x2048x512 .f32) (x3 : FVec Ideal S2048x512 .f32) (x4 : FVec Ideal S2048 .f32)
    (i : S16x2048x2048.Idx) :
    val_main_v4 (F := Ideal) x1 x3 x4 i = proj x1 x3 x4 (i 0) (i 1) (i 2) := by
  rw [val_main_v4_apply, val_main_v3_apply, val_main_v0_apply, val_main_v2_apply, val_main_v1_apply]
  simp only [radio_at, weight_at, bias_at]
  rfl

/-- The quotient stage is the attention weight. -/
theorem quotient_stage (x0 : FVec Ideal S16x2048x2048 .f32) (x1 : FVec Ideal S16x2048x512 .f32)
    (x3 : FVec Ideal S2048x512 .f32) (x4 : FVec Ideal S2048 .f32) (x5 : FVec Ideal S1x2048 .f32) (x6 : FVec Ideal S1 .f32)
    (j : S16x2048x1.Idx) :
    val_main_v15 (F := Ideal) x0 x1 x3 x4 x5 x6 j = attn x0 x1 x3 x4 x5 x6 (j 0) (j 1) := by
  rw [val_main_v15_apply, val_main_v14_apply, val_main_cst_0_apply, val_main_v13_apply, val_main_v12_apply,
    val_main_cst_apply, val_main_v11_apply, val_main_v10_apply]
  rw [Ideal.ofBits_def, logistic_spelt]
  rw [val_main_v9_apply, val_main_v6_apply, val_main_v8_apply, val_main_v7_apply, gate_bias_at]
  have hs : ∀ k : Fin 2048, val_main_v5 (F := Ideal) x0 x1 x3 x4 (lidx_main_v6 j k) * x5 (ridx_main_v6 j k)
      = (x0 (ix3 (j 0) (j 1) k) + proj x1 x3 x4 (j 0) (j 1) k) * x5 (ix2 (0 : Fin 1) k) := fun k => by
    rw [summand_at, gate_row_at, val_main_v5_apply, tanh_stage]; rfl
  simp only [hs]
  rfl

/-- The reference's result is the specification. -/
theorem result_eq (x0 : FVec Ideal S16x2048x2048 .f32) (x1 : FVec Ideal S16x2048x512 .f32) (x2 : FVec Ideal S16x2048 .f32)
    (x3 : FVec Ideal S2048x512 .f32) (x4 : FVec Ideal S2048 .f32) (x5 : FVec Ideal S1x2048 .f32) (x6 : FVec Ideal S1 .f32) :
    val_main_v21 (F := Ideal) x0 x1 x2 x3 x4 x5 x6 = out x0 x1 x2 x3 x4 x5 x6 := by
  funext i
  rw [val_main_v21_apply, val_main_v20_apply, val_main_v18_apply, val_main_v17_apply, val_main_v19_apply,
    val_main_v16_apply, quotient_stage, tanh_stage, mask_at]
  rfl

end Cert.RadioGate.Ref

end
-- ==== Proof.lean ====
/-
  Gated radio attention: a tiled kernel against its reference, equal over the extended reals.

  Both programs compute, for a batch entry `b`, a time step `s` and a hidden coordinate `h`,

    out[b,s,h] = lstm[b,s,h] + (σ (∑ k, (lstm[b,s,k] + proj[b,s,k]) · Wg[0,k] + bg[0]) · proj[b,s,h]) · mask[b,s],
    proj[b,s,h] = tanh (∑ r, radio[b,s,r] · W[h,r] + bias[h]),          σ x = 1 / (1 + e^(-x)).

  The kernel tiles (b, s) into 16 × 8 row blocks of 256 rows, rounds its matrix operands to a shorter float format
  (the identity on the extended reals), accumulates each product into zero and applies the logistic function as one
  operation; the reference spells the logistic function out as negate, exponential, one plus, one over. The two group
  every sum and product the same way, so no law that needs finite values is used and the precondition is never opened.

  Proof/Spec.lean states the function; Proof/RefSide.lean reads the reference's stages as that function;
  Proof/Payload.lean reads what a grid point stores, entry by entry; Proof/Blocks.lean reads the point's blocks as slabs
  of the arrays, shows the written blocks cover the result array, and states the kernel's run. The two kernel frames are
  the generated ones; the reference's frame is its generated run with the result dropped; the idealization rewrote
  nothing, so there is nothing to preserve.
-/
import proofs.«122293_j10900626997293_1_alg».proof.Defs
import proofs.«122293_j10900626997293_1_alg».proof.Proof.Gen.Kernel
import proofs.«122293_j10900626997293_1_alg».proof.Proof.Gen.Kernel.Skeleton
import proofs.«122293_j10900626997293_1_alg».proof.Proof.Gen.Kernel.Launch
import proofs.«122293_j10900626997293_1_alg».proof.Proof.Gen.Kernel.Points
import proofs.«122293_j10900626997293_1_alg».proof.Proof.Gen.Kernel.Frame
import proofs.«122293_j10900626997293_1_alg».proof.Proof.Gen.KernelIdeal
import proofs.«122293_j10900626997293_1_alg».proof.Proof.Gen.KernelIdeal.Skeleton
import proofs.«122293_j10900626997293_1_alg».proof.Proof.Gen.KernelIdeal.Launch
import proofs.«122293_j10900626997293_1_alg».proof.Proof.Gen.KernelIdeal.Points
import proofs.«122293_j10900626997293_1_alg».proof.Proof.Gen.KernelIdeal.Frame
import proofs.«122293_j10900626997293_1_alg».proof.Proof.Gen.ReferenceIdeal
import proofs.«122293_j10900626997293_1_alg».proof.Proof.Gen.Pre_finite_inputs
import proofs.«122293_j10900626997293_1_alg».proof.Proof.Gen.KernelIdeal.Value
import proofs.«122293_j10900626997293_1_alg».proof.Proof.Gen.ReferenceIdeal.Run
import proofs.«122293_j10900626997293_1_alg».proof.Proof.Gen.ReferenceIdeal.Read
import proofs.«122293_j10900626997293_1_alg».proof.Proof.Blocks
import proofs.«122293_j10900626997293_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, the kernel ends with the result array at the specification of its
    arguments and the reference with its result at the specification of its own: one array. -/
theorem algebraic : Cert.algebraic_KernelIdeal_ReferenceIdeal := by
  intro m ρ m' ρ' _ hagree
  refine ⟨fun c => Cert.RadioGate.Kern.result m c, Cert.RadioGate.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v21_eq, Cert.RadioGate.Ref.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
